-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S4096x4096 .f32) (main_arg2 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 18
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S16384x4096, .bf16⟩
  | .hbm, ⟨15, _⟩ => ⟨S4096x4096, .bf16⟩
  | .hbm, ⟨16, _⟩ => ⟨S1x4096, .f32⟩
  | .hbm, ⟨17, _⟩ => ⟨S16384x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  transposes_S4096x4096_S4096x4096_1_0 : S4096x4096.Transposes [1, 0] S4096x4096
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .bf16 = 32 ∨ (Rect.block (s := S16384x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x4096.size a
  hwx0_3 : ∀ i : grid0.Coords, EltTy.bits .f32 = 32 ∨ (Rect.block (s := S16384x4096) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v9) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S16384x4096, .f32⟩
  | .hbm, ⟨14, _⟩ => ⟨S1x4096, .f32⟩
  | .hbm, ⟨15, _⟩ => ⟨S16384x4096, .f32⟩
  | .hbm, ⟨16, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  dot_S16384x4096_S4096x4096_S16384x4096_1_1_0_0_n_n_wf : DotDims.WF S16384x4096 S4096x4096 S16384x4096 [1] [1] [0] [0] [] []

variable [Facts₀]

def dot_S16384x4096_S4096x4096_S16384x4096_1_1_0_0_n_n : DotDims S16384x4096 S4096x4096 S16384x4096 where
  lhsContracting := [1]
  rhsContracting := [1]
  lhsNonContracting := [0]
  rhsNonContracting := [0]
  lhsBatch := []
  rhsBatch := []
  wf := dot_S16384x4096_S4096x4096_S16384x4096_1_1_0_0_n_n_wf

class Facts : Prop extends Facts₀ where

variable [Facts]
-- ==== Proof.Regroup.lean ====
/-
  A finite sum over `m · n` consecutive terms is the sum of `m` consecutive runs of `n` terms each. The matrix
  product this certificate is about contracts 4096 coordinates; the kernel takes them as four runs of 1024, one per
  step of its innermost grid axis, and adds the runs' sums in order. In a commutative monoid the two groupings agree,
  with no finiteness needed: the extended reals' addition is commutative and associative everywhere.
-/
import Mathlib.Algebra.BigOperators.Fin
import Mathlib.Algebra.BigOperators.Intervals
import Mathlib.Logic.Equiv.Fin.Basic

namespace Cert.BinaryLinear

open Finset

/-- Coordinate `j` of run `s`, among `m · n` coordinates. -/
def runIdx {m n : ℕ} (s : Fin m) (j : Fin n) : Fin (m * n) := finProdFinEquiv (s, j)

theorem runIdx_val {m n : ℕ} (s : Fin m) (j : Fin n) : (runIdx s j).val = n * s.val + j.val := by
  unfold runIdx
  rw [finProdFinEquiv_apply_val]
  exact Nat.add_comm _ _

/-- The sum over all `m · n` coordinates, run by run. -/
theorem sum_by_runs {M : Type*} [AddCommMonoid M] (m n : ℕ) (f : Fin (m * n) → M) :
    ∑ k, f k = ∑ s : Fin m, ∑ j : Fin n, f (runIdx s j) := by
  rw [← Equiv.sum_comp finProdFinEquiv f, Fintype.sum_prod_type]
  rfl

/-- The same with the runs counted by a natural number below `m`, as a fold over grid points counts them: the term
    of run `s` is any `R s` that agrees with the run's sum for `s < m`. -/
theorem sum_by_runs_range {M : Type*} [AddCommMonoid M] (m n : ℕ) (f : Fin (m * n) → M) (R : ℕ → M)
    (hR : ∀ s : Fin m, R s.val = ∑ j : Fin n, f (runIdx s j)) :
    ∑ s ∈ range m, R s = ∑ k, f k := by
  rw [sum_by_runs, Finset.sum_range]
  exact Finset.sum_congr rfl fun s _ => hR s

end Cert.BinaryLinear
-- ==== Proof.Payload.lean ====
/-
  The three values the kernel body stores, read at one entry over the extended reals.
  The reset stores zero everywhere. The accumulating store holds, at row `p` and column `q`, what the scratch held
  there plus the product of row `p` of the activation block with column `q` of the weight block: a sum over the
  1024 shared coordinates (the matrix unit starts from a zero accumulator). The closing store adds the bias block's
  single row at column `q`.
-/
import proofs.«135371_j38147899523752_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The left operand's row coordinate is the output's row. -/
theorem lhs_axis0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl

/-- The left operand's column coordinate is the shared one. -/
theorem lhs_axis1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q

/-- The right operand's row coordinate is the shared one. -/
theorem rhs_axis0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q

/-- The right operand's column coordinate is the output's column. -/
theorem rhs_axis1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The block product from a zero accumulator, at `(p, q)`: `∑ k, x[p, k] · w[k, q]`. -/
theorem blockProduct_apply (x w : FVec Ideal S1024x1024 .bf16) (p q : Fin 1024) :
    matmul (F := Ideal) dot_S1024x1024_S1024x1024_S1024x1024_1_0_0_1_n_n none x w (constant S1024x1024 .f32 0x00000000#32) (ix2 p q)
      = ∑ k : Fin 1024, x (ix2 p k) * w (ix2 k q) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]

/-- The reset value is zero at every entry. -/
theorem reset_apply (j : S1024x1024.Idx) : k0_pay1 (F := Ideal) j = 0 := by
  unfold k0_pay1
  rw [shapeCast_self]
  show Ideal.ofBits .f32 0x00000000#32 = 0
  exact Ideal.ofBits_zero_f32

/-- The accumulating store at `(p, q)`: the scratch's entry plus the block product's. -/
theorem accumulate_apply (acc : FVec Ideal S1024x1024 .f32) (x w : FVec Ideal S1024x1024 .bf16) (p q : Fin 1024) :
    k0_pay2 (F := Ideal) acc x w (ix2 p q) = acc (ix2 p q) + ∑ k : Fin 1024, x (ix2 p k) * w (ix2 k q) := by
  unfold k0_pay2
  rw [shapeCast_self, shapeCast_self, shapeCast_self, addf_apply, blockProduct_apply]

/-- The closing store at `(p, q)`: the scratch's entry plus the bias row's entry at column `q`. -/
theorem addBias_apply (acc : FVec Ideal S1024x1024 .f32) (b : FVec Ideal S1x1024 .f32) (p q : Fin 1024) :
    k0_pay3 (F := Ideal) acc b (ix2 p q) = acc (ix2 p q) + b (ix2 (0 : Fin 1) q) := by
  unfold k0_pay3
  rw [shapeCast_self, addf_apply, broadcastTo_1b_ab_apply]

end Cert.KernelIdeal.Payload

end
-- ==== Proof.Pieces.lean ====
/-
  What each of the body's three control cases leaves behind, as values of what it loaded.
  At the first step of a run along the innermost grid axis the body stores zero into the scratch, reads it back and
  stores "zero block + block product"; at a middle step it stores "what the scratch held + block product"; at the last
  step it does the same and then stores "scratch + bias row" into the output block. Each case ends with one store
  covering the whole buffer, so the buffer holds exactly that store's value.
-/
import proofs.«135371_j38147899523752_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem origin : (![0, 0] : Fin 2 → Nat) = fun _ => 0 := funext fun a => by fin_cases a <;> rfl

/-- First step of a run: the scratch ends at the block product added to the freshly stored zero block. -/
theorem scratch_first (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 x1 : Vec F S1024x1024 .bf16) (x2 : Vec F S1x1024 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1024x1024) origin]

/-- Middle step: the scratch ends at the block product added to what it held. -/
theorem scratch_middle (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 x1 : Vec F S1024x1024 .bf16) (x2 : Vec F S1x1024 .f32) (xs0 : Vec F S1024x1024 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero origin]
  simp only [View.readAt_eq_ld, h3.read_unread, h4.read_unread, h7.read_unread, View.ld_unit_zero (S := S1024x1024) origin]

/-- Last step: the scratch ends as at a middle step … -/
theorem scratch_last (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x1024 .bf16) (x2 : Vec F S1x1024 .f32) (xs0 : Vec F S1024x1024 .f32) :
    sout0_C_0 c i a3 h3 a4 h4 a5 h5 a6 h6 a7 h7 hc0 hc1 x0 x1 x2 xs0 = k0_pay2 xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero origin]
  simp only [View.readAt_eq_ld, h3.read_unread, h4.read_unread, h7.read_unread, View.ld_unit_zero (S := S1024x1024) origin]

/-- … and the output block ends at that scratch value with the bias row added. -/
theorem out_last (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x1024 .bf16) (x2 : Vec F S1x1024 .f32) (xs0 : Vec F S1024x1024 .f32) :
    out0_C_3 c i a3 h3 a4 h4 a5 h5 a6 h6 a7 h7 hc0 hc1 x0 x1 x2 xs0 = k0_pay3 (k0_pay2 xs0 x0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero origin]
  simp only [View.readAt_eq_ld, h3.read_unread, h4.read_unread, h5.read_unread, h7.read_unread, View.ld_unit_zero (S := S1024x1024) origin,
    View.ld_unit_zero (S := S1x1024) origin, View.readCov_unit_zero (S := S1024x1024) _ origin]

end Cert.KernelIdeal.Pieces

end
-- ==== Proof.Blocks.lean ====
/-
  What the pallas_call finds in its three staged arrays, and what each window's block holds at a grid point.
  Before the call @main has computed, from the weight matrix `W`, the scaled sign matrix `sign(W) · (∑|W| / 4096)`
  (row sums), transposed it, changed both matrix operands' float format (the identity over the extended reals), and
  given the bias a leading unit axis. Grid point `t` of the 16 × 4 × 4 grid has row block `t / 16`, column block
  `(t / 4) % 4` and contraction step `t % 4`; the activation window is at block (row block, step), the weight window
  at (step, column block), the bias window at (0, column block), the output window at (row block, column block).
-/
import proofs.«135371_j38147899523752_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The scaled sign matrix as @main computes it: `sign(W)` times each row's mean absolute value. -/
def scaledSign (W : FVec Ideal S4096x4096 .f32) : FVec Ideal S4096x4096 .f32 :=
  mulf (Host.sign W) (broadcastInDim S4096x4096 ![0, 1] bcast_S4096x1_S4096x4096_0_1
    (Host.divf (broadcastInDim S4096x1 ![0] bcast_S4096_S4096x1_0
        (Host.reduceAdd (Host.absf W) (constant (F := Ideal) S_ .f32 0x00000000#32) reducesTo_S4096x4096_S4096_d1 h_S_))
      (broadcastInDim S4096x1 ![] bcast_S_S4096x1 (constant (F := Ideal) S_ .f32 0x45800000#32))))

/-- The three argument arrays on core `c`, at their literal shapes. -/
abbrev xarr (c : Dev nD) : FVec Ideal S16384x4096 .f32 := m ((c : Thread nD τ).loc main_arg0)
abbrev warr (c : Dev nD) : FVec Ideal S4096x4096 .f32 := m ((c : Thread nD τ).loc main_arg1)
abbrev barr (c : Dev nD) : FVec Ideal S4096 .f32 := m ((c : Thread nD τ).loc main_arg2)

/-- The activation operand the call stages is the argument in another float format. -/
theorem staged_x (c : Dev nD) :
    V m c main_v9 = (truncf (F := Ideal) (s := S16384x4096) (φ := .f32) .bf16 (m ((c : Thread nD τ).loc main_arg0)) bitsLt_bf16_f32 : FVec Ideal S16384x4096 .bf16) := by
  dsimp only [Gen.V, Gen.hostOps0]; after_results

/-- The weight operand the call stages is the scaled sign matrix, transposed, in another float format. -/
theorem staged_w (c : Dev nD) :
    V m c main_v10
      = (truncf (F := Ideal) (s := S4096x4096) (φ := .f32) .bf16 (transpose S4096x4096 [1, 0] (scaledSign (m ((c : Thread nD τ).loc main_arg1))) transposes_S4096x4096_S4096x4096_1_0) bitsLt_bf16_f32 : FVec Ideal S4096x4096 .bf16) := by
  dsimp only [Gen.V, Gen.hostOps0]; after_results; rfl

/-- The bias operand the call stages is the argument with a leading unit axis. -/
theorem staged_b (c : Dev nD) :
    V m c main_v11 = (shapeCast S1x4096 (m ((c : Thread nD τ).loc main_arg2) : FVec Ideal S4096 .f32) shapeCasts_S4096_S1x4096 : FVec Ideal S1x4096 .f32) := by
  dsimp only [Gen.V, Gen.hostOps0]; after_results; rfl

/-- The staged activation at `(r, s)` is the argument's entry there. -/
theorem staged_x_apply (c : Dev nD) (r : Fin 16384) (s : Fin 4096) :
    V m c main_v9 (ix2 r s) = xarr m c (ix2 r s) := by
  rw [staged_x]; rfl

/-- The staged weight at `(s, o)` is the scaled sign matrix's entry `(o, s)`. -/
theorem staged_w_apply (c : Dev nD) (s o : Fin 4096) :
    V m c main_v10 (ix2 s o) = scaledSign (warr m c) (ix2 o s) := by
  rw [staged_w, truncf_apply, transpose_ix2_apply]

/-- The staged bias at `(0, o)` is the argument's entry `o`. -/
theorem staged_b_apply (c : Dev nD) (u : Fin 1) (o : Fin 4096) :
    V m c main_v11 (ix2 u o) = barr m c (ix1 o) := by
  rw [staged_b, shapeCast_a_1a_apply]

/-- Where each window is at grid point `t`, decided over the 256 points. -/
theorem window_at : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The activation, weight and bias blocks at point `t`, at their literal shapes. -/
abbrev xblk (c : Dev nD) (t : Fin cfg0.N) : Vec Ideal S1024x1024 .bf16 := iblk m c 0 t
abbrev wblk (c : Dev nD) (t : Fin cfg0.N) : Vec Ideal S1024x1024 .bf16 := iblk m c 1 t
abbrev bblk (c : Dev nD) (t : Fin cfg0.N) : Vec Ideal S1x1024 .f32 := iblk m c 2 t

/-- The activation block at point `t`, entry `(p, k)`: row `1024·(t/16) + p`, column `1024·(t%4) + k` of `x`. -/
theorem xblk_apply (c : Dev nD) (t : Fin cfg0.N) (p k : Fin 1024) (r : Fin 16384) (s : Fin 4096)
    (hr : r.val = 1024 * (t.val / 16) + p.val) (hs : s.val = 1024 * (t.val % 4) + k.val) :
    xblk m c t (ix2 p k) = xarr m c (ix2 r s) := by
  obtain ⟨e0, e1, -⟩ := window_at t
  rw [← staged_x_apply m c r s]
  show iblk m c 0 t (ix2 p k) = _
  unfold iblk
  rw [View.read_apply]
  show V m c main_v9 _ = V m c main_v9 _
  refine congrArg (V m c main_v9) (funext fun a => Fin.ext ?_)
  match a with
  | ⟨0, _⟩ => show win0_0.index t (0 : Fin 2) * 1024 + 1 * p.val = r.val; omega
  | ⟨1, _⟩ => show win0_0.index t (1 : Fin 2) * 1024 + 1 * k.val = s.val; omega

/-- The weight block at point `t`, entry `(k, q)`: the scaled sign matrix at row `1024·((t/4)%4) + q`, column `1024·(t%4) + k`. -/
theorem wblk_apply (c : Dev nD) (t : Fin cfg0.N) (k q : Fin 1024) (s o : Fin 4096)
    (hs : s.val = 1024 * (t.val % 4) + k.val) (ho : o.val = 1024 * (t.val / 4 % 4) + q.val) :
    wblk m c t (ix2 k q) = scaledSign (warr m c) (ix2 o s) := by
  obtain ⟨-, -, e2, e3, -⟩ := window_at t
  rw [← staged_w_apply m c s o]
  show iblk m c 1 t (ix2 k q) = _
  unfold iblk
  rw [View.read_apply]
  show V m c main_v10 _ = V m c main_v10 _
  refine congrArg (V m c main_v10) (funext fun a => Fin.ext ?_)
  match a with
  | ⟨0, _⟩ => show win0_1.index t (0 : Fin 2) * 1024 + 1 * k.val = s.val; omega
  | ⟨1, _⟩ => show win0_1.index t (1 : Fin 2) * 1024 + 1 * q.val = o.val; omega

/-- The bias block at point `t`, entry `(0, q)`: the bias at `1024·((t/4)%4) + q`. -/
theorem bblk_apply (c : Dev nD) (t : Fin cfg0.N) (q : Fin 1024) (o : Fin 4096)
    (ho : o.val = 1024 * (t.val / 4 % 4) + q.val) :
    bblk m c t (ix2 (0 : Fin 1) q) = barr m c (ix1 o) := by
  obtain ⟨-, -, -, -, e4, e5, -⟩ := window_at t
  rw [← staged_b_apply m c (0 : Fin 1) o]
  show iblk m c 2 t (ix2 (0 : Fin 1) q) = _
  unfold iblk
  rw [View.read_apply]
  show V m c main_v11 _ = V m c main_v11 _
  refine congrArg (V m c main_v11) (funext fun a => Fin.ext ?_)
  match a with
  | ⟨0, _⟩ => show win0_2.index t (0 : Fin 2) * 1 + 1 * 0 = 0; omega
  | ⟨1, _⟩ => show win0_2.index t (1 : Fin 2) * 1024 + 1 * q.val = o.val; omega

end Cert.KernelIdeal.Blocks

end
-- ==== Proof.Fold.lean ====
/-
  The scratch accumulator over one run of the innermost grid axis.
  The four points `4b, 4b+1, 4b+2, 4b+3` share a row block and a column block and step through the four contraction
  blocks. The scratch is reset at the first and each point adds its block product, so after point `4b + j` an entry
  holds zero plus the block products of points `4b … 4b + j` there. After the last point these are the four runs of
  1024 coordinates of one sum over all 4096: row `r` of `x` against row `o` of the scaled sign matrix.
-/
import proofs.«135371_j38147899523752_1_alg».proof.Proof.Gen.KernelIdeal.Value
import proofs.«135371_j38147899523752_1_alg».proof.Proof.Regroup
import proofs.«135371_j38147899523752_1_alg».proof.Proof.Payload
import proofs.«135371_j38147899523752_1_alg».proof.Proof.Pieces
import proofs.«135371_j38147899523752_1_alg».proof.Proof.Blocks

noncomputable section

namespace Cert.KernelIdeal.Fold

open Cert.KernelIdeal Cert.KernelIdeal.Gen Cert.KernelIdeal.Value Cert.KernelIdeal.Blocks
open Idealize.ShloMosaic Idealize.ShloMosaic.TcCoe Idealize.SL.Sem Idealize.ShloMosaic.ValueIdx

variable (m : (ℓ : Loc nD τ sig) → Buf (Elt Ideal) ℓ)

/-- What point `n` leaves in the scratch when `n` starts a run: zero block plus its block product. -/
theorem step_first (c : Dev nD) (n : ℕ) (hb : n < cfg0.N) (h0 : n % 4 = 0) (acc : Vec Ideal S1024x1024 .f32) :
    scAt0_0 m c n hb acc = k0_pay2 (k0_pay1 (F := Ideal)) (xblk m c ⟨n, hb⟩) (wblk m c ⟨n, hb⟩) := by
  have h1 : ¬n % 4 = 3 := by omega
  unfold scAt0_0
  rw [dif_pos h0, dif_neg h1]
  exact Pieces.scratch_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))

/-- What a later point of a run leaves in the scratch: what it held plus the point's block product. -/
theorem step_later (c : Dev nD) (n : ℕ) (hb : n < cfg0.N) (h0 : ¬n % 4 = 0) (acc : Vec Ideal S1024x1024 .f32) :
    scAt0_0 m c n hb acc = k0_pay2 acc (xblk m c ⟨n, hb⟩) (wblk m c ⟨n, hb⟩) := by
  unfold scAt0_0
  rw [dif_neg h0]
  by_cases h1 : n % 4 = 3
  · rw [dif_pos h1]
    exact Pieces.scratch_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc
  · rw [dif_neg h1]
    exact Pieces.scratch_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc

/-- Point `n`'s block product at an entry (past the grid, where it is never used, zero). -/
def addend (c : Dev nD) (n : ℕ) (i : S1024x1024.Idx) : EReal :=
  if h : n < cfg0.N then ∑ k : Fin 1024, xblk m c ⟨n, h⟩ (ix2 (i 0) k) * wblk m c ⟨n, h⟩ (ix2 k (i 1)) else 0

/-- After point `t` an entry of the scratch holds zero plus the block products of its run's points up to `t`. -/
theorem scratch_apply (c : Dev nD) (t : Fin cfg0.N) (i : S1024x1024.Idx) :
    (outsAt0 m c t.val t.isLt).2 i = 0 + ∑ s ∈ Finset.range (t.val % 4 + 1), addend m c (4 * (t.val / 4) + s) i := by
  rw [soutsAt0_0_eq]
  refine Pipeline.accAt_add_apply (ι := S1024x1024.Idx) (β := EReal) _ _ (fun _ => 0) (addend m c) (4 * (t.val / 4)) 3 ?_ ?_ (t.val % 4) (by omega) _ i
  · intro h j
    show scAt0_0 m c (4 * (t.val / 4)) h _ j = 0 + addend m c (4 * (t.val / 4)) j
    obtain ⟨p, q, rfl⟩ : ∃ p q : Fin 1024, j = ix2 p q := ⟨j 0, j 1, eq_ix2 j⟩
    rw [step_first m c _ h (by omega), Payload.accumulate_apply, Payload.reset_apply]
    unfold addend
    rw [dif_pos h]
  · intro n h acc j hlo hhi
    show scAt0_0 m c n h acc j = acc j + addend m c n j
    obtain ⟨p, q, rfl⟩ : ∃ p q : Fin 1024, j = ix2 p q := ⟨j 0, j 1, eq_ix2 j⟩
    rw [step_later m c n h (by omega), Payload.accumulate_apply]
    unfold addend
    rw [dif_pos h]

/-- After a run's last point the scratch entry `(p, q)` is row `r` of `x` against row `o` of the scaled sign matrix,
    summed over all 4096 coordinates, where `r` and `o` are the entry's row and column in the whole arrays. -/
theorem scratch_last_apply (c : Dev nD) (t : Fin cfg0.N) (h3 : t.val % 4 = 3) (p q : Fin 1024) (r : Fin 16384) (o : Fin 4096)
    (hr : r.val = 1024 * (t.val / 16) + p.val) (ho : o.val = 1024 * (t.val / 4 % 4) + q.val) :
    (outsAt0 m c t.val t.isLt).2 (ix2 p q)
      = ∑ k : Fin 4096, xarr m c (ix2 r k) * scaledSign (warr m c) (ix2 o k) := by
  have hN : cfg0.N = 256 := N_0
  have ht : t.val < 256 := lt_of_lt_of_eq t.isLt hN
  rw [scratch_apply, h3, zero_add]
  refine Cert.BinaryLinear.sum_by_runs_range 4 1024
    (fun k : Fin (4 * 1024) => xarr m c (ix2 r k) * scaledSign (warr m c) (ix2 o k))
    (fun s => addend m c (4 * (t.val / 4) + s) (ix2 p q)) fun s => ?_
  have hs : s.val < 4 := s.isLt
  have hlt : 4 * (t.val / 4) + s.val < cfg0.N := lt_of_lt_of_eq (by omega) hN.symm
  show addend m c (4 * (t.val / 4) + s.val) (ix2 p q) = _
  unfold addend
  rw [dif_pos hlt]
  refine Finset.sum_congr rfl fun k _ => ?_
  have hk : k.val < 1024 := k.isLt
  have hv := Cert.BinaryLinear.runIdx_val s k
  show xblk m c ⟨4 * (t.val / 4) + s.val, hlt⟩ (ix2 p k) * wblk m c ⟨4 * (t.val / 4) + s.val, hlt⟩ (ix2 k q) = _
  rw [xblk_apply m c ⟨4 * (t.val / 4) + s.val, hlt⟩ p k r (Cert.BinaryLinear.runIdx s k) (by show r.val = 1024 * ((4 * (t.val / 4) + s.val) / 16) + p.val; omega) (by show _ = 1024 * ((4 * (t.val / 4) + s.val) % 4) + k.val; omega),
    wblk_apply m c ⟨4 * (t.val / 4) + s.val, hlt⟩ k q (Cert.BinaryLinear.runIdx s k) o (by show _ = 1024 * ((4 * (t.val / 4) + s.val) % 4) + k.val; omega) (by show o.val = 1024 * ((4 * (t.val / 4) + s.val) / 4 % 4) + q.val; omega)]

end Cert.KernelIdeal.Fold

end
-- ==== Proof.Spec.lean ====
/-
  The function both programs compute: a linear layer whose weight matrix is given row by row.
  Entry `(n, o)` of the result is row `n` of `X` against row `o` of `B`, summed over the 4096 shared coordinates,
  plus entry `o` of `b`. Here `B` will be the scaled sign matrix of the weights; nothing below looks inside it.
-/
import Idealize.ShloMosaic.Lib.ValueIdx

noncomputable section

namespace Cert.BinaryLinear

open Idealize.ShloMosaic Idealize.ShloMosaic.ValueIdx

/-- `(X · Bᵀ + b)` entry by entry, over the extended reals. -/
def linear (X : (⟨2, ![16384, 4096]⟩ : Shape).Idx → EReal) (B : (⟨2, ![4096, 4096]⟩ : Shape).Idx → EReal)
    (b : (⟨1, ![4096]⟩ : Shape).Idx → EReal) : (⟨2, ![16384, 4096]⟩ : Shape).Idx → EReal :=
  fun i => (∑ k : Fin 4096, X (ix2 (i 0) k) * B (ix2 (i 1) k)) + b (ix1 (i 1))

theorem linear_apply (X : (⟨2, ![16384, 4096]⟩ : Shape).Idx → EReal) (B : (⟨2, ![4096, 4096]⟩ : Shape).Idx → EReal)
    (b : (⟨1, ![4096]⟩ : Shape).Idx → EReal) (r : Fin 16384) (o : Fin 4096) :
    linear X B b (ix2 r o) = (∑ k : Fin 4096, X (ix2 r k) * B (ix2 o k)) + b (ix1 o) := rfl

end Cert.BinaryLinear

end
-- ==== Proof.Final.lean ====
/-
  The result array after the run.
  Only a run's last point writes the output block back. There the block holds the scratch plus the bias row, and the
  scratch holds the full 4096-term products, so the block written back is the block of the linear layer's array at
  (row block, column block). Those blocks, one per run, tile the whole 16384 × 4096 array: entry `(n, o)` lies in the
  block of the run with row block `n / 1024` and column block `o / 1024`. Hence the array ends at the layer's value.
-/
import proofs.«135371_j38147899523752_1_alg».proof.Proof.Gen.KernelIdeal.Value
import proofs.«135371_j38147899523752_1_alg».proof.Proof.Fold
import proofs.«135371_j38147899523752_1_alg».proof.Proof.Spec

noncomputable section

namespace Cert.KernelIdeal.Final

open Cert.KernelIdeal Cert.KernelIdeal.Gen Cert.KernelIdeal.Value Cert.KernelIdeal.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The linear layer of the argument arrays, as contents of the result array. -/
abbrev target (c : Dev nD) : Buf (Elt Ideal) ((c : Thread nD τ).loc main_v12) :=
  Cert.BinaryLinear.linear (m ((c : Thread nD τ).loc main_arg0)) (scaledSign (m ((c : Thread nD τ).loc main_arg1)))
    (m ((c : Thread nD τ).loc main_arg2))

/-- At a run's last point the output block is the scratch (as that point leaves it) plus the bias row. -/
theorem out_at_last (c : Dev nD) (t : Fin cfg0.N) (h3 : t.val % 4 = 3) :
    (outsAt0 m c t.val t.isLt).1 = k0_pay3 (outsAt0 m c t.val t.isLt).2 (bblk m c t) := by
  have h0 : ¬t.val % 4 = 0 := by omega
  rw [outsAt0_C m c t h0 h3]
  dsimp only
  exact (Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t) (outsAt0 m c (t.val - 1) (Nat.lt_of_le_of_lt (Nat.sub_le _ _) t.isLt)).2).trans
    (congrArg (fun z => k0_pay3 z (iblk m c 2 t)) (Pieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t) (outsAt0 m c (t.val - 1) (Nat.lt_of_le_of_lt (Nat.sub_le _ _) t.isLt)).2).symm)

/-- Entry `(p, q)` of that block is the layer's entry `(r, o)`, its row and column in the whole array. -/
theorem block_entry (c : Dev nD) (t : Fin cfg0.N) (h3 : t.val % 4 = 3) (p q : Fin 1024) (r : Fin 16384) (o : Fin 4096)
    (hr : r.val = 1024 * (t.val / 16) + p.val) (ho : o.val = 1024 * (t.val / 4 % 4) + q.val) :
    (outsAt0 m c t.val t.isLt).1 (ix2 p q) = target m c (ix2 r o) := by
  rw [out_at_last m c t h3, Payload.addBias_apply, Fold.scratch_last_apply m c t h3 p q r o hr ho, bblk_apply m c t q o ho]
  rfl

/-- What a writing point writes back is its block of the layer's array. -/
theorem flushed_eq (c : Dev nD) (t : Fin cfg0.N) (hf : (cfg0.win 3).flush t = true) :
    (dats m 0 c).flushed 3 t = ((cfg0.win 3).blk t).view.read (Elt Ideal) (target m c) := by
  have h3 : t.val % 4 = 3 := (flush0_3 t).mp hf
  obtain ⟨-, -, -, -, -, -, e6, e7⟩ := window_at t
  have ht : t.val < 256 := lt_of_lt_of_eq t.isLt N_0
  rw [flushed3]
  funext j
  rw [View.read_apply]
  show (outsAt0 m c t.val t.isLt).1 j = target m c (((cfg0.win 3).blk t).view.emb j)
  have hj0 : (j 0).val < 1024 := (j 0).isLt
  have hj1 : (j 1).val < 1024 := (j 1).isLt
  refine ((congrArg (outsAt0 m c t.val t.isLt).1 (eq_ix2 j)).trans
    (block_entry m c t h3 (j 0) (j 1) ⟨1024 * (t.val / 16) + (j 0).val, by omega⟩ ⟨1024 * (t.val / 4 % 4) + (j 1).val, by omega⟩ rfl rfl)).trans ?_
  refine congrArg (target m c) (funext fun a => Fin.ext ?_)
  match a with
  | ⟨0, _⟩ => show 1024 * (t.val / 16) + (j 0).val = win0_3.index t (0 : Fin 2) * 1024 + 1 * (j 0).val; omega
  | ⟨1, _⟩ => show 1024 * (t.val / 4 % 4) + (j 1).val = win0_3.index t (1 : Fin 2) * 1024 + 1 * (j 1).val; omega

/-- An entry of the array is in point `t`'s block iff each coordinate is in the block's range on its axis. -/
theorem mem_block (t : Fin cfg0.N) (i : S16384x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v12).slice (win0_3.rect t)).set ↔ _
  rw [View.set_slice_whole, Rect.mem_set_unit]
  exact Iff.rfl

/-- Every entry is in the block of some writing point: the last point of the run at its row and column block. -/
theorem covered (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : cfg0.N = 256 := N_0
  obtain ⟨t, ht⟩ : ∃ t : Fin cfg0.N, t.val = 16 * ((i 0).val / 1024) + 4 * ((i 1).val / 1024) + 3 :=
    ⟨⟨16 * ((i 0).val / 1024) + 4 * ((i 1).val / 1024) + 3, by rw [hN]; omega⟩, rfl⟩
  obtain ⟨-, -, -, -, -, -, e6, e7⟩ := window_at t
  refine ⟨t, (flush0_3 t).mpr (by omega), ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The result array after the run is the linear layer of the argument arrays. -/
theorem final (c : Dev nD) : (dats m 0 c).arrAt 3 cfg0.N = target m c :=
  (dats m 0 c).arrAt_eq_of_cover 3 (target m c) (fun t hf => flushed_eq m c t hf) covered

/-- The idealized kernel's run: it ends with the result at the layer's value and the arguments unchanged. -/
theorem run : θ_run defs (onTc (τ := τ) (main (F := Ideal))) ⟨m, fun _ => 0, ρ⟩ fun r => ∀ c : Dev nD,
      r.2.mem ((c : Thread nD τ).loc main_v12) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Final

end
-- ==== Proof.Reference.lean ====
/-
  The reference's result is the linear layer over its own scaled sign matrix.
  The reference contracts row `n` of `x` with row `o` of the scaled sign matrix in one product over all 4096
  coordinates, and adds the bias broadcast over the rows: read at an entry, that is the layer's defining formula.
-/
import proofs.«135371_j38147899523752_1_alg».proof.Proof.Gen.ReferenceIdeal.Read
import proofs.«135371_j38147899523752_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The reference's last stage, entry by entry. -/
theorem reference_is_linear (x0 : FVec Ideal S16384x4096 .f32) (x1 : FVec Ideal S4096x4096 .f32) (x2 : FVec Ideal S4096 .f32) :
    val_main_v11 (F := Ideal) x0 x1 x2 = Cert.BinaryLinear.linear x0 (val_main_v7 (F := Ideal) x1) x2 := by
  funext i
  have el : ∀ k : Fin 4096, lidx_main_v8 i k = ix2 (i 0) k := fun k =>
    funext fun a => Fin.ext (by match a with | ⟨0, _⟩ => rfl | ⟨1, _⟩ => rfl)
  have er : ∀ k : Fin 4096, ridx_main_v8 i k = ix2 (i 1) k := fun k =>
    funext fun a => Fin.ext (by match a with | ⟨0, _⟩ => rfl | ⟨1, _⟩ => rfl)
  have eb : idx_main_v9 (idx_main_v10 i) = ix1 (i 1) :=
    funext fun a => Fin.ext (by match a with | ⟨0, _⟩ => rfl)
  rw [val_main_v11_apply, val_main_v8_apply, val_main_v10_apply, val_main_v9_apply, eb]
  simp only [el, er]
  rfl

end Cert.ReferenceIdeal.RefValue

end
-- ==== Proof.lean ====
/-
  A linear layer with binarized weights, `y = x · (sign(W) · α)ᵀ + bias` with `α` the mean absolute value of each row
  of `W`, computed two ways over f32[16384, 4096] activations and f32[4096, 4096] weights.

  The kernel builds the scaled sign matrix on the host, transposes it, narrows both matrix operands to bf16 and runs a
  tiled matrix product: a 16 × 4 × 4 grid of 1024 × 1024 blocks whose innermost axis walks the contraction; a scratch
  block is zeroed at the first step, gains one block product per step, and at the last step is stored, with the bias
  row added, as the output block. The reference builds the same scaled sign matrix and contracts it with `x` in one
  product over all 4096 coordinates, then adds the bias.

  Over the extended reals a change of float format is the identity and both matrix products are plain sums of
  products, so entry `(n, o)` of the kernel's result is `(((0 + S₀) + S₁) + S₂) + S₃ + bias[o]`, where `Sⱼ` sums
  `x[n, k] · B[o, k]` over the `j`-th run of 1024 coordinates `k` and `B` is the scaled sign matrix, while the
  reference's is `∑ₖ x[n, k] · B[o, k] + bias[o]` over all 4096. Addition on the extended reals is commutative and
  associative with zero neutral, so regrouping the sum into its four runs joins the two sides; no finiteness of the
  inputs is used. Both programs compute `B` by the same host operations, so it is never opened.

  The pieces: `Regroup` (a sum by runs), `Spec` (the layer as one function), `Payload` (the body's stored values at an
  entry), `Pieces` (what each control case leaves in the scratch and the output block), `Blocks` (the staged arrays
  and the windows' blocks), `Fold` (the scratch after a run as the full sum), `Final` (the result array after the
  run), `Reference` (the reference's result as the same function). The frames of the two kernel programs and the
  reference's run are the generated ones.
-/
import proofs.«135371_j38147899523752_1_alg».proof.Defs
import proofs.«135371_j38147899523752_1_alg».proof.Proof.Gen.Kernel
import proofs.«135371_j38147899523752_1_alg».proof.Proof.Gen.Kernel.Skeleton
import proofs.«135371_j38147899523752_1_alg».proof.Proof.Gen.Kernel.Launch
import proofs.«135371_j38147899523752_1_alg».proof.Proof.Gen.Kernel.Points
import proofs.«135371_j38147899523752_1_alg».proof.Proof.Gen.Kernel.Frame
import proofs.«135371_j38147899523752_1_alg».proof.Proof.Gen.KernelIdeal
import proofs.«135371_j38147899523752_1_alg».proof.Proof.Gen.KernelIdeal.Skeleton
import proofs.«135371_j38147899523752_1_alg».proof.Proof.Gen.KernelIdeal.Launch
import proofs.«135371_j38147899523752_1_alg».proof.Proof.Gen.KernelIdeal.Points
import proofs.«135371_j38147899523752_1_alg».proof.Proof.Gen.KernelIdeal.Frame
import proofs.«135371_j38147899523752_1_alg».proof.Proof.Gen.ReferenceIdeal
import proofs.«135371_j38147899523752_1_alg».proof.Proof.Gen.Pre_finite_inputs
import proofs.«135371_j38147899523752_1_alg».proof.Proof.Gen.KernelIdeal.Value
import proofs.«135371_j38147899523752_1_alg».proof.Proof.Gen.ReferenceIdeal.Run
import proofs.«135371_j38147899523752_1_alg».proof.Proof.Gen.ReferenceIdeal.Read
import proofs.«135371_j38147899523752_1_alg».proof.Proof.Final
import proofs.«135371_j38147899523752_1_alg».proof.Proof.Reference
import Idealize.ShloMosaic.Adequacy
import Idealize.ShloMosaic.Init

noncomputable section

namespace Cert.Proof

open Idealize.ShloMosaic Idealize.ShloMosaic.TcCoe Idealize.SL.Sem

/-- The word-level kernel terminates without fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs compute the scaled sign matrix by the same host operations. -/
theorem scaledSign_same (W : FVec Ideal Cert.ReferenceIdeal.S4096x4096 .f32) :
    Cert.ReferenceIdeal.Read.val_main_v7 (F := Ideal) W = Cert.KernelIdeal.Blocks.scaledSign W := rfl

/-- From arguments that agree, both programs end at the linear layer of those arguments. -/
theorem algebraic : Cert.algebraic_KernelIdeal_ReferenceIdeal := by
  intro m ρ m' ρ' _ hagree
  refine ⟨fun c => Cert.KernelIdeal.Final.target m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.reference_is_linear, scaledSign_same,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
